-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S64x128 .f32) (main_arg3 : FVec F S64 .f32) (main_arg4 : FVec F S64x128 .f32) (main_arg5 : FVec F S32x64 .f32) (main_arg6 : FVec F S32 .f32) (main_arg7 : FVec F S32x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S128x64 : Shape := ⟨2, ![128, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩
abbrev S600000x64 : Shape := ⟨2, ![600000, 64]⟩
abbrev S64x32 : Shape := ⟨2, ![64, 32]⟩
abbrev S100000x32 : Shape := ⟨2, ![100000, 32]⟩
abbrev S5000x32 : Shape := ⟨2, ![5000, 32]⟩
abbrev S1x32 : Shape := ⟨2, ![1, 32]⟩

abbrev nBuf : Space → Nat
  | .hbm => 51
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S100000x128, .f32⟩
  | .hbm, ⟨30, _⟩ => ⟨S600000x1, .i32⟩
  | .hbm, ⟨31, _⟩ => ⟨S100000x128, .f32⟩
  | .hbm, ⟨32, _⟩ => ⟨S128x64, .f32⟩
  | .hbm, ⟨33, _⟩ => ⟨S128x64, .f32⟩
  | .hbm, ⟨34, _⟩ => ⟨S100000x64, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x64, .f32⟩
  | .hbm, ⟨44, _⟩ => ⟨S_, .f32⟩
  | .hbm, ⟨45, _⟩ => ⟨S100000x64, .f32⟩
  | .hbm, ⟨46, _⟩ => ⟨S600000x1, .i32⟩
  | .hbm, ⟨47, _⟩ => ⟨S100000x64, .f32⟩
  | .hbm, ⟨48, _⟩ => ⟨S64x32, .f32⟩
  | .hbm, ⟨49, _⟩ => ⟨S64x32, .f32⟩
  | .hbm, ⟨50, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x32, .f32⟩
  | .local _ .vmem, ⟨18, _⟩ => ⟨S32, .f32⟩
  | .local _ .vmem, ⟨19, _⟩ => ⟨S64x32, .f32⟩
  | .local _ .vmem, ⟨20, _⟩ => ⟨S5000x32, .f32⟩
  | .local _ .vmem, ⟨21, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S64x128_S128x64_1_0 : S64x128.Transposes [1, 0] S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S32x64_S64x32_1_0 : S32x64.Transposes [1, 0] S64x32
  shapeCasts_S5000x64_S5000x64 : S5000x64.ShapeCasts S5000x64
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S600000x64 : Shape := ⟨2, ![600000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x600000, .i32⟩
  | .hbm, ⟨49, _⟩ => ⟨S600000, .i32⟩
  | .hbm, ⟨50, _⟩ => ⟨S1x600000, .i32⟩
  | .hbm, ⟨51, _⟩ => ⟨S600000, .i32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x64, .f32⟩
  | .hbm, ⟨61, _⟩ => ⟨S_, .f32⟩
  | .hbm, ⟨62, _⟩ => ⟨S100000x64, .f32⟩
  | .hbm, ⟨63, _⟩ => ⟨S600000x1, .i32⟩
  | .hbm, ⟨64, _⟩ => ⟨S100000x64, .f32⟩
  | .hbm, ⟨65, _⟩ => ⟨S_, .f32⟩
  | .hbm, ⟨66, _⟩ => ⟨S600000, .f32⟩
  | .hbm, ⟨67, _⟩ => ⟨S_, .f32⟩
  | .hbm, ⟨68, _⟩ => ⟨S100000, .f32⟩
  | .hbm, ⟨69, _⟩ => ⟨S600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S64x32, .f32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S100000x32, .f32⟩
  | .hbm, ⟨82, _⟩ => ⟨S64x32, .f32⟩
  | .hbm, ⟨83, _⟩ => ⟨S100000x32, .f32⟩
  | .hbm, ⟨84, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x32_S100000x32_1_0_0_1_n_n_wf : DotDims.WF S100000x64 S64x32 S100000x32 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  The specification: one mean-aggregated graph layer, entry by entry, over the extended reals.

  A layer takes a matrix of neighbour sums `A : [n, fi]`, a vector of neighbour counts `C : [n]`, the node features
  `X : [n, fi]`, two weight matrices `Wl Wr : [fi, fo]` and a bias `b : [fo]`. Row `i` of the neighbour sums is divided
  by `max (C i) 1` (the mean; a node with no neighbour keeps its zero row), the result is multiplied by `Wl`, the bias is
  added, and the product of the node's own features with `Wr` is added last:

      layer A C X Wl b Wr i j = (∑ q, (A i q / max (C i) 1) * Wl q j) + b j + ∑ q, X i q * Wr q j.

  The first layer is followed by a rectifier, `max · 0`. The two constants are kept as the words the programs print
  (`1.0` is `0x3F800000`, `0.0` is `0x00000000`): both programs use the same words, so they are never evaluated.
  Matrices are written curried, `Fin n → Fin k → EReal`; `cur` reads an array of a rank-two shape that way.
-/
import Idealize.ShloMosaic.PureOps.Ideal
import Idealize.ShloMosaic.Lib.ValueIdx

noncomputable section

open scoped BigOperators

namespace Cert.Spec

open Idealize.ShloMosaic Idealize.ShloMosaic.ValueIdx

/-- An array of shape `[m, k]` read as a curried matrix. -/
def cur {M K : Nat} (l : (⟨2, ![M, K]⟩ : Shape).Idx → EReal) : Fin M → Fin K → EReal := fun i q => l (ix2 i q)

/-- Member `b` of a stack `[B, m, k]` of matrices, curried. -/
def cur3 {B M K : Nat} (l : (⟨3, ![B, M, K]⟩ : Shape).Idx → EReal) (b : Fin B) : Fin M → Fin K → EReal :=
  fun i q => l (ix3 b i q)

/-- An array of shape `[n]` read as a function of its one coordinate. -/
def vec {N : Nat} (l : (⟨1, ![N]⟩ : Shape).Idx → EReal) : Fin N → EReal := fun i => l (ix1 i)

/-- A column `[n, 1]` read as a function of its row. -/
def col {N : Nat} (l : (⟨2, ![N, 1]⟩ : Shape).Idx → EReal) : Fin N → EReal := fun i => l (ix2 i (0 : Fin 1))

/-- The matrix product, entry `(i, j)`. -/
def mm {M K N : Nat} (A : Fin M → Fin K → EReal) (B : Fin K → Fin N → EReal) (i : Fin M) (j : Fin N) : EReal :=
  ∑ q : Fin K, A i q * B q j

/-- The word `1.0` as an extended real. -/
def one : EReal := Ideal.ofBits .f32 0x3F800000#32

/-- The word `0.0` as an extended real. -/
def zero : EReal := Ideal.ofBits .f32 0x00000000#32

/-- The mean of the neighbour sums: row `i` divided by `max (C i) 1`. -/
def mean {N Fi : Nat} (A : Fin N → Fin Fi → EReal) (C : Fin N → EReal) : Fin N → Fin Fi → EReal :=
  fun i q => Ideal.div (A i q) (max (C i) one)

/-- One layer: the mean times `Wl`, plus the bias, plus the node's own features times `Wr`. -/
def layer {N Fi Fo : Nat} (A : Fin N → Fin Fi → EReal) (C : Fin N → EReal) (X : Fin N → Fin Fi → EReal)
    (Wl : Fin Fi → Fin Fo → EReal) (b : Fin Fo → EReal) (Wr : Fin Fi → Fin Fo → EReal) : Fin N → Fin Fo → EReal :=
  fun i j => mm (mean A C) Wl i j + b j + mm X Wr i j

/-- The rectifier, entry by entry. -/
def relu {N Fo : Nat} (Z : Fin N → Fin Fo → EReal) : Fin N → Fin Fo → EReal := fun i j => max (Z i j) zero

/-- A curried matrix laid out as an array of shape `[n, fo]`. -/
def arr {N Fo : Nat} (Z : Fin N → Fin Fo → EReal) : (⟨2, ![N, Fo]⟩ : Shape).Idx → EReal := fun y => Z (y 0) (y 1)

theorem arr_ix2 {N Fo : Nat} (Z : Fin N → Fin Fo → EReal) (i : Fin N) (j : Fin Fo) : arr Z (ix2 i j) = Z i j := rfl

theorem cur_arr {N Fo : Nat} (Z : Fin N → Fin Fo → EReal) : cur (arr Z) = Z := rfl

end Cert.Spec

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx
import proofs.«115730_j81544249081903_1_alg».proof.Proof.Spec

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = Cert.Spec.mm (Cert.Spec.cur l) (Cert.Spec.cur r) i j := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = Cert.Spec.mm (Cert.Spec.cur l) (Cert.Spec.cur r) i j := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = Cert.Spec.mm (Cert.Spec.cur l) (Cert.Spec.cur r) i j := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = Cert.Spec.mm (Cert.Spec.cur l) (Cert.Spec.cur r) i j :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = Cert.Spec.mm (Cert.Spec.cur l) (Cert.Spec.cur r) i j := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = Cert.Spec.mm (Cert.Spec.cur3 l b) (Cert.Spec.cur3 r b) i j := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = Cert.Spec.mm (Cert.Spec.cur3 l b) (Cert.Spec.cur3 r b) i j := rfl

end Batched

end Cert.LibPlainDot

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.Layer.lean ====
/-
  The two kernel bodies, read at an entry.

  Each body loads a block of `tm = 5000` rows of the neighbour sums, the matching block of the count column, the same
  rows of the node features, the two weight matrices whole and the bias whole. It takes the maximum of the count
  column with `1.0`, divides every row of the sums by its count, multiplies by the left weights into a zero
  accumulator, adds the bias row, adds the product of the features with the right weights, and (first body only)
  takes the maximum with `0.0`. Changes of float format are the identity on the extended reals, a cast to the same
  shape is the identity, and a block product into a zero accumulator is the plain matrix product. So entry `(p, q)`
  of what a body stores is entry `(p, q)` of the specification's layer of the loaded blocks.
-/
import proofs.«115730_j81544249081903_1_alg».proof.Proof.Gen.KernelIdeal.Skeleton
import proofs.«115730_j81544249081903_1_alg».proof.Proof.Spec
import proofs.«115730_j81544249081903_1_alg».proof.Proof.LibPlainDot
import proofs.«115730_j81544249081903_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Layer

open Idealize.ShloMosaic Idealize.ShloMosaic.ValueIdx Cert.KernelIdeal Cert.KernelIdeal.Gen Cert.Spec

/-- A block product into the zero accumulator, whatever the operands' float formats, read at `(i, j)`, is the
    matrix product's entry: the accumulator contributes the zero word, and the contraction is re-indexed by the
    shared coordinate. -/
theorem matmul_zero_entry {M K N : Nat} {φ₁ φ₂ : FTy}
    (d : DotDims (⟨2, ![M, K]⟩ : Shape) (⟨2, ![K, N]⟩ : Shape) (⟨2, ![M, N]⟩ : Shape))
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j) = mm (cur l) (cur r) i j := by
  show FloatOps.matmul d prec l r (constant (⟨2, ![M, N]⟩ : Shape) .f32 0x00000000#32) (ix2 i j) = _
  rw [Ideal.matmul_constant_zero_apply]
  exact Cert.LibPlainDot.plain_sum d hlc hrc hln hrn hlb hrb l r i j

/-- The left factor of the first product: the neighbour sums divided, row by row, by the count column's maximum
    with `1.0` broadcast along the row, in the narrower float format — read curried, it is the mean. -/
theorem mean_entry {M K : Nat} (hcc : (⟨2, ![M, 1]⟩ : Shape).ShapeCasts ⟨2, ![M, 1]⟩)
    (hca : (⟨2, ![M, K]⟩ : Shape).ShapeCasts ⟨2, ![M, K]⟩) (hb : (⟨2, ![M, 1]⟩ : Shape).Broadcasts ⟨2, ![M, K]⟩)
    (hbits : FTy.bf16.bits < FTy.f32.bits)
    (v0 : FVec Ideal (⟨2, ![M, 1]⟩ : Shape) .f32) (v4 : FVec Ideal (⟨2, ![M, K]⟩ : Shape) .f32) :
    cur (truncf .bf16 (divf (shapeCast (⟨2, ![M, K]⟩ : Shape) v4 hca)
        (broadcastTo (⟨2, ![M, K]⟩ : Shape) (maximumf (shapeCast (⟨2, ![M, 1]⟩ : Shape) v0 hcc)
          (broadcast (⟨2, ![M, 1]⟩ : Shape) (Scalar.ofBits .f32 0x3F800000#32))) hb)) hbits)
      = mean (cur v4) (col v0) := by
  funext i q
  show Ideal.div (shapeCast (⟨2, ![M, K]⟩ : Shape) v4 hca (ix2 i q))
      (broadcastTo (⟨2, ![M, K]⟩ : Shape) (maximumf (shapeCast (⟨2, ![M, 1]⟩ : Shape) v0 hcc)
          (broadcast (⟨2, ![M, 1]⟩ : Shape) (Scalar.ofBits .f32 0x3F800000#32))) hb (ix2 i q)) = _
  rw [shapeCast_self, Cert.Lib.Keepdims.broadcastTo_a1_ab_apply, shapeCast_self]
  rfl

/-- THE FIRST BODY's stored block at `(p, q)`: the rectified layer of the loaded blocks. -/
theorem pay0_entry (v0 : Vec Ideal S5000x1 .f32) (v4 v9 : Vec Ideal S5000x128 .f32) (v11 v14 : Vec Ideal S128x64 .f32)
    (v18 : Vec Ideal S64 .f32) (p : Fin 5000) (q : Fin 64) :
    k0_pay1 v0 v4 v9 v11 v14 v18 (ix2 p q)
      = relu (layer (cur v4) (col v0) (cur v9) (cur v11) (vec v18) (cur v14)) p q := by
  unfold k0_pay1
  rw [maximumf_apply, addf_apply, addf_apply, broadcast_apply,
    matmul_zero_entry _ rfl rfl rfl rfl rfl rfl, matmul_zero_entry _ rfl rfl rfl rfl rfl rfl,
    mean_entry, broadcastTo_1b_ab_apply, shapeCast_a_1a_apply]
  simp only [shapeCast_self]
  rfl

/-- THE SECOND BODY's stored block at `(p, q)`: the layer of the loaded blocks, not rectified. -/
theorem pay1_entry (v0 : Vec Ideal S5000x1 .f32) (v4 v9 : Vec Ideal S5000x64 .f32) (v12 v15 : Vec Ideal S64x32 .f32)
    (v19 : Vec Ideal S32 .f32) (p : Fin 5000) (q : Fin 32) :
    k1_pay1 v0 v4 v9 v12 v15 v19 (ix2 p q)
      = layer (cur v4) (col v0) (cur v9) (cur v12) (vec v19) (cur v15) p q := by
  unfold k1_pay1
  rw [addf_apply, addf_apply,
    matmul_zero_entry _ rfl rfl rfl rfl rfl rfl, matmul_zero_entry _ rfl rfl rfl rfl rfl rfl,
    mean_entry, broadcastTo_1b_ab_apply, shapeCast_a_1a_apply]
  simp only [shapeCast_self]
  rfl

end Cert.KernelIdeal.Layer

end
-- ==== Proof.Region0.lean ====
/-
  The first pallas_call's result array, as one function of the arrays the region is entered with.

  The grid has 20 points; point `t` works on rows `5000 t … 5000 t + 4999`: it is handed block `t` of the neighbour
  sums, of the count column and of the node features, the two weight matrices and the bias whole, and writes back
  block `t` of the result. A layer's row `i` depends only on row `i` of the sums, the counts and the features, so the
  layer of the blocks at point `t`, at row `p`, is the layer of the whole arrays at row `5000 t + p`. The 20 blocks
  tile the 100000 rows, so after the region the result array is the rectified layer of the arrays, everywhere.
-/
import proofs.«115730_j81544249081903_1_alg».proof.Proof.Gen.KernelIdeal.Frame
import proofs.«115730_j81544249081903_1_alg».proof.Proof.Layer
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The arrays the region is entered with, at their literal types -/

/-- The neighbour sums. -/
abbrev sums (c : Dev nD) : Vec Ideal S100000x128 .f32 := V c main_v18
/-- The neighbour counts, a column. -/
abbrev cnts (c : Dev nD) : Vec Ideal S100000x1 .f32 := V c main_v8
/-- The node features. -/
abbrev feats (c : Dev nD) : Vec Ideal S100000x128 .f32 := V c main_arg0
/-- The left weights, transposed. -/
abbrev wl (c : Dev nD) : Vec Ideal S128x64 .f32 := V c main_v19
/-- The bias. -/
abbrev bias (c : Dev nD) : Vec Ideal S64 .f32 := V c main_arg3
/-- The right weights, transposed. -/
abbrev wr (c : Dev nD) : Vec Ideal S128x64 .f32 := V c main_v20

/-- THE RESULT: the rectified layer of the entry arrays, as an array. -/
def result (c : Dev nD) : Vec Ideal S100000x64 .f32 :=
  arr (relu (layer (cur (sums V c)) (col (cnts V c)) (cur (feats V c)) (cur (wl V c)) (vec (bias V c)) (cur (wr V c))))

/-! ## The index maps over the grid -/

/-- Every row-blocked window is at block row `t`, column block `0`; the whole-array windows at block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `5000 t + p` of the array. -/
def row (t : Fin cfg0.N) (p : Fin 5000) : Fin 100000 :=
  ⟨t.val * 5000 + p.val, by have ht : t.val < 20 := lt_of_lt_of_eq t.isLt N_0; have := p.isLt; omega⟩

/-! ## The blocks, read through their windows -/

theorem blk_sums (c : Dev nD) (t : Fin cfg0.N) (p : Fin 5000) (k : Fin 128) :
    iblk0 V c 0 t (ix2 p k) = sums V c (ix2 (row t p) k) := by
  obtain ⟨e0, e1, -⟩ := idx_facts t
  show V c main_v18 (((cfg0.win 0).blk t).view.emb (ix2 p k)) = V c main_v18 (ix2 (row t p) k)
  refine congrArg (V c main_v18) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk_cnts (c : Dev nD) (t : Fin cfg0.N) (p : Fin 5000) (u : Fin 1) :
    iblk0 V c 1 t (ix2 p u) = cnts V c (ix2 (row t p) u) := by
  obtain ⟨-, -, e0, e1, -⟩ := idx_facts t
  show V c main_v8 (((cfg0.win 1).blk t).view.emb (ix2 p u)) = V c main_v8 (ix2 (row t p) u)
  refine congrArg (V c main_v8) ?_
  funext a; apply Fin.ext
  match a with
  | ⟨0, _⟩ => show win0_1.index t (0 : Fin 2) * 5000 + 1 * p.val = t.val * 5000 + p.val; omega
  | ⟨1, _⟩ => show win0_1.index t (1 : Fin 2) * 1 + 1 * u.val = u.val; omega

theorem blk_feats (c : Dev nD) (t : Fin cfg0.N) (p : Fin 5000) (k : Fin 128) :
    iblk0 V c 2 t (ix2 p k) = feats V c (ix2 (row t p) k) := by
  obtain ⟨-, -, -, -, e0, e1, -⟩ := idx_facts t
  show V c main_arg0 (((cfg0.win 2).blk t).view.emb (ix2 p k)) = V c main_arg0 (ix2 (row t p) k)
  refine congrArg (V c main_arg0) ?_
  funext a; apply Fin.ext
  match a with
  | ⟨0, _⟩ => show win0_2.index t (0 : Fin 2) * 5000 + 1 * p.val = t.val * 5000 + p.val; omega
  | ⟨1, _⟩ => show win0_2.index t (1 : Fin 2) * 128 + 1 * k.val = k.val; omega

theorem blk_wl (c : Dev nD) (t : Fin cfg0.N) (k : Fin 128) (q : Fin 64) :
    iblk0 V c 3 t (ix2 k q) = wl V c (ix2 k q) := by
  obtain ⟨-, -, -, -, -, -, e0, e1, -⟩ := idx_facts t
  show V c main_v19 (((cfg0.win 3).blk t).view.emb (ix2 k q)) = V c main_v19 (ix2 k q)
  refine congrArg (V c main_v19) ?_
  funext a; apply Fin.ext
  match a with
  | ⟨0, _⟩ => show win0_3.index t (0 : Fin 2) * 128 + 1 * k.val = k.val; omega
  | ⟨1, _⟩ => show win0_3.index t (1 : Fin 2) * 64 + 1 * q.val = q.val; omega

theorem blk_bias (c : Dev nD) (t : Fin cfg0.N) (q : Fin 64) :
    iblk0 V c 4 t (ix1 q) = bias V c (ix1 q) := by
  obtain ⟨-, -, -, -, -, -, -, -, e0, -⟩ := idx_facts t
  show V c main_arg3 (((cfg0.win 4).blk t).view.emb (ix1 q)) = V c main_arg3 (ix1 q)
  refine congrArg (V c main_arg3) ?_
  funext a; apply Fin.ext
  match a with
  | ⟨0, _⟩ => show win0_4.index t (0 : Fin 1) * 64 + 1 * q.val = q.val; omega

theorem blk_wr (c : Dev nD) (t : Fin cfg0.N) (k : Fin 128) (q : Fin 64) :
    iblk0 V c 5 t (ix2 k q) = wr V c (ix2 k q) := by
  obtain ⟨-, -, -, -, -, -, -, -, -, e0, e1, -⟩ := idx_facts t
  show V c main_v20 (((cfg0.win 5).blk t).view.emb (ix2 k q)) = V c main_v20 (ix2 k q)
  refine congrArg (V c main_v20) ?_
  funext a; apply Fin.ext
  match a with
  | ⟨0, _⟩ => show win0_5.index t (0 : Fin 2) * 128 + 1 * k.val = k.val; omega
  | ⟨1, _⟩ => show win0_5.index t (1 : Fin 2) * 64 + 1 * q.val = q.val; omega

/-- Entry `(p, q)` of the result's block `t` is entry `(5000 t + p, q)` of the array. -/
theorem out_emb (t : Fin cfg0.N) (p : Fin 5000) (q : Fin 64) :
    ((cfg0.win 6).blk t).view.emb (ix2 p q) = ix2 (row t p) q := by
  obtain ⟨-, -, -, -, -, -, -, -, -, -, -, e0, e1⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-! ## What a point writes back -/

/-- WHAT POINT `t` WRITES BACK is block `t` of the rectified layer of the entry arrays: the body's stored block at
    `(p, q)` is the layer of the point's blocks there, the row-blocked operands are the arrays' rows `5000 t + p`, the
    others the arrays themselves, and a layer's row reads only that row of its row-wise operands. -/
theorem flushed (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz2]
  simp only [View.ld_unit_zero (S := S5000x1) hz2, View.ld_unit_zero (S := S5000x128) hz2,
    View.ld_unit_zero (S := S128x64) hz2, View.ld_unit_zero (S := S64) hz1]
  funext j
  obtain ⟨p, q, rfl⟩ : ∃ (p : Fin 5000) (q : Fin 64), j = ix2 p q := ⟨j 0, j 1, eq_ix2 j⟩
  refine (Layer.pay0_entry (iblk0 V c 1 t) (iblk0 V c 0 t) (iblk0 V c 2 t) (iblk0 V c 3 t) (iblk0 V c 5 t) (iblk0 V c 4 t) p q).trans ?_
  show _ = result V c (((cfg0.win 6).blk t).view.emb (ix2 p q))
  rw [out_emb]
  have h0 : cur (M := 5000) (K := 128) (iblk0 V c 0 t) = fun p k => cur (sums V c) (row t p) k :=
    funext fun p => funext fun k => blk_sums V c t p k
  have h1 : col (N := 5000) (iblk0 V c 1 t) = fun p => col (cnts V c) (row t p) :=
    funext fun p => blk_cnts V c t p 0
  have h2 : cur (M := 5000) (K := 128) (iblk0 V c 2 t) = fun p k => cur (feats V c) (row t p) k :=
    funext fun p => funext fun k => blk_feats V c t p k
  have h3 : cur (M := 128) (K := 64) (iblk0 V c 3 t) = cur (wl V c) :=
    funext fun k => funext fun q => blk_wl V c t k q
  have h4 : vec (N := 64) (iblk0 V c 4 t) = vec (bias V c) := funext fun q => blk_bias V c t q
  have h5 : cur (M := 128) (K := 64) (iblk0 V c 5 t) = cur (wr V c) :=
    funext fun k => funext fun q => blk_wr V c t k q
  rw [h0, h1, h2, h3, h4, h5]
  rfl

/-! ## The blocks tile the array -/

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v21).slice (win0_6.rect t)).set ↔ _
  rw [View.set_slice_whole, Rect.mem_set_unit]
  exact Iff.rfl

/-- Every index is in the block of the point `row / 5000`, and every point writes back. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 5000 < cfg0.N := by rw [show cfg0.N = 20 from N_0]; omega
  obtain ⟨-, -, -, -, -, -, -, -, -, -, -, e0, e1⟩ := idx_facts ⟨(i 0).val / 5000, hN⟩
  refine ⟨⟨(i 0).val / 5000, hN⟩, flush0_6 _, ?_⟩
  rw [mem_blk]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, hN⟩ (1 : Fin 2) * 64 ≤ (i 1).val
      ∧ (i 1).val < win0_6.index ⟨(i 0).val / 5000, hN⟩ (1 : Fin 2) * 64 + 64
    rw [e1]
    omega

/-- THE ARRAY AFTER THE REGION: the rectified layer of the entry arrays. -/
theorem array (c : Dev nD) : (dat0 V c).arrAt 6 cfg0.N = result V c :=
  (dat0 V c).arrAt_eq_of_cover 6 (result V c) (fun t _ => flushed V c t) (cover)

end Cert.KernelIdeal.Region0

end
-- ==== Proof.Region1.lean ====
/-
  The second pallas_call's result array, as one function of the arrays the region is entered with.

  The grid has 20 points; point `t` works on rows `5000 t … 5000 t + 4999`: it is handed block `t` of the neighbour
  sums, of the count column and of the node features, the two weight matrices and the bias whole, and writes back
  block `t` of the result. A layer's row `i` depends only on row `i` of the sums, the counts and the features, so the
  layer of the blocks at point `t`, at row `p`, is the layer of the whole arrays at row `5000 t + p`. The 20 blocks
  tile the 100000 rows, so after the region the result array is the layer of the arrays, everywhere.
-/
import proofs.«115730_j81544249081903_1_alg».proof.Proof.Gen.KernelIdeal.Frame
import proofs.«115730_j81544249081903_1_alg».proof.Proof.Layer
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The arrays the region is entered with, at their literal types -/

/-- The neighbour sums. -/
abbrev sums (c : Dev nD) : Vec Ideal S100000x64 .f32 := V c main_v31
/-- The neighbour counts, a column. -/
abbrev cnts (c : Dev nD) : Vec Ideal S100000x1 .f32 := V c main_v8
/-- The node features. -/
abbrev feats (c : Dev nD) : Vec Ideal S100000x64 .f32 := V c main_v21
/-- The left weights, transposed. -/
abbrev wl (c : Dev nD) : Vec Ideal S64x32 .f32 := V c main_v32
/-- The bias. -/
abbrev bias (c : Dev nD) : Vec Ideal S32 .f32 := V c main_arg6
/-- The right weights, transposed. -/
abbrev wr (c : Dev nD) : Vec Ideal S64x32 .f32 := V c main_v33

/-- THE RESULT: the layer of the entry arrays, as an array. -/
def result (c : Dev nD) : Vec Ideal S100000x32 .f32 :=
  arr (layer (cur (sums V c)) (col (cnts V c)) (cur (feats V c)) (cur (wl V c)) (vec (bias V c)) (cur (wr V c)))

/-! ## The index maps over the grid -/

/-- Every row-blocked window is at block row `t`, column block `0`; the whole-array windows at block `0`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` is row `5000 t + p` of the array. -/
def row (t : Fin cfg1.N) (p : Fin 5000) : Fin 100000 :=
  ⟨t.val * 5000 + p.val, by have ht : t.val < 20 := lt_of_lt_of_eq t.isLt N_1; have := p.isLt; omega⟩

/-! ## The blocks, read through their windows -/

theorem blk_sums (c : Dev nD) (t : Fin cfg1.N) (p : Fin 5000) (k : Fin 64) :
    iblk1 V c 0 t (ix2 p k) = sums V c (ix2 (row t p) k) := by
  obtain ⟨e0, e1, -⟩ := idx_facts t
  show V c main_v31 (((cfg1.win 0).blk t).view.emb (ix2 p k)) = V c main_v31 (ix2 (row t p) k)
  refine congrArg (V c main_v31) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem blk_cnts (c : Dev nD) (t : Fin cfg1.N) (p : Fin 5000) (u : Fin 1) :
    iblk1 V c 1 t (ix2 p u) = cnts V c (ix2 (row t p) u) := by
  obtain ⟨-, -, e0, e1, -⟩ := idx_facts t
  show V c main_v8 (((cfg1.win 1).blk t).view.emb (ix2 p u)) = V c main_v8 (ix2 (row t p) u)
  refine congrArg (V c main_v8) ?_
  funext a; apply Fin.ext
  match a with
  | ⟨0, _⟩ => show win1_1.index t (0 : Fin 2) * 5000 + 1 * p.val = t.val * 5000 + p.val; omega
  | ⟨1, _⟩ => show win1_1.index t (1 : Fin 2) * 1 + 1 * u.val = u.val; omega

theorem blk_feats (c : Dev nD) (t : Fin cfg1.N) (p : Fin 5000) (k : Fin 64) :
    iblk1 V c 2 t (ix2 p k) = feats V c (ix2 (row t p) k) := by
  obtain ⟨-, -, -, -, e0, e1, -⟩ := idx_facts t
  show V c main_v21 (((cfg1.win 2).blk t).view.emb (ix2 p k)) = V c main_v21 (ix2 (row t p) k)
  refine congrArg (V c main_v21) ?_
  funext a; apply Fin.ext
  match a with
  | ⟨0, _⟩ => show win1_2.index t (0 : Fin 2) * 5000 + 1 * p.val = t.val * 5000 + p.val; omega
  | ⟨1, _⟩ => show win1_2.index t (1 : Fin 2) * 64 + 1 * k.val = k.val; omega

theorem blk_wl (c : Dev nD) (t : Fin cfg1.N) (k : Fin 64) (q : Fin 32) :
    iblk1 V c 3 t (ix2 k q) = wl V c (ix2 k q) := by
  obtain ⟨-, -, -, -, -, -, e0, e1, -⟩ := idx_facts t
  show V c main_v32 (((cfg1.win 3).blk t).view.emb (ix2 k q)) = V c main_v32 (ix2 k q)
  refine congrArg (V c main_v32) ?_
  funext a; apply Fin.ext
  match a with
  | ⟨0, _⟩ => show win1_3.index t (0 : Fin 2) * 64 + 1 * k.val = k.val; omega
  | ⟨1, _⟩ => show win1_3.index t (1 : Fin 2) * 32 + 1 * q.val = q.val; omega

theorem blk_bias (c : Dev nD) (t : Fin cfg1.N) (q : Fin 32) :
    iblk1 V c 4 t (ix1 q) = bias V c (ix1 q) := by
  obtain ⟨-, -, -, -, -, -, -, -, e0, -⟩ := idx_facts t
  show V c main_arg6 (((cfg1.win 4).blk t).view.emb (ix1 q)) = V c main_arg6 (ix1 q)
  refine congrArg (V c main_arg6) ?_
  funext a; apply Fin.ext
  match a with
  | ⟨0, _⟩ => show win1_4.index t (0 : Fin 1) * 32 + 1 * q.val = q.val; omega

theorem blk_wr (c : Dev nD) (t : Fin cfg1.N) (k : Fin 64) (q : Fin 32) :
    iblk1 V c 5 t (ix2 k q) = wr V c (ix2 k q) := by
  obtain ⟨-, -, -, -, -, -, -, -, -, e0, e1, -⟩ := idx_facts t
  show V c main_v33 (((cfg1.win 5).blk t).view.emb (ix2 k q)) = V c main_v33 (ix2 k q)
  refine congrArg (V c main_v33) ?_
  funext a; apply Fin.ext
  match a with
  | ⟨0, _⟩ => show win1_5.index t (0 : Fin 2) * 64 + 1 * k.val = k.val; omega
  | ⟨1, _⟩ => show win1_5.index t (1 : Fin 2) * 32 + 1 * q.val = q.val; omega

/-- Entry `(p, q)` of the result's block `t` is entry `(5000 t + p, q)` of the array. -/
theorem out_emb (t : Fin cfg1.N) (p : Fin 5000) (q : Fin 32) :
    ((cfg1.win 6).blk t).view.emb (ix2 p q) = ix2 (row t p) q := by
  obtain ⟨-, -, -, -, -, -, -, -, -, -, -, e0, e1⟩ := idx_facts t
  funext a; apply Fin.ext
  match a with
  | ⟨0, _⟩ => show win1_6.index t (0 : Fin 2) * 5000 + 1 * p.val = t.val * 5000 + p.val; omega
  | ⟨1, _⟩ => show win1_6.index t (1 : Fin 2) * 32 + 1 * q.val = q.val; omega

/-! ## What a point writes back -/

/-- WHAT POINT `t` WRITES BACK is block `t` of the layer of the entry arrays: the body's stored block at
    `(p, q)` is the layer of the point's blocks there, the row-blocked operands are the arrays' rows `5000 t + p`, the
    others the arrays themselves, and a layer's row reads only that row of its row-wise operands. -/
theorem flushed (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S5000x1) hz2, View.ld_unit_zero (S := S5000x64) hz2,
    View.ld_unit_zero (S := S64x32) hz2, View.ld_unit_zero (S := S32) hz1]
  funext j
  obtain ⟨p, q, rfl⟩ : ∃ (p : Fin 5000) (q : Fin 32), j = ix2 p q := ⟨j 0, j 1, eq_ix2 j⟩
  refine (Layer.pay1_entry (iblk1 V c 1 t) (iblk1 V c 0 t) (iblk1 V c 2 t) (iblk1 V c 3 t) (iblk1 V c 5 t) (iblk1 V c 4 t) p q).trans ?_
  show _ = result V c (((cfg1.win 6).blk t).view.emb (ix2 p q))
  rw [out_emb]
  have h0 : cur (M := 5000) (K := 64) (iblk1 V c 0 t) = fun p k => cur (sums V c) (row t p) k :=
    funext fun p => funext fun k => blk_sums V c t p k
  have h1 : col (N := 5000) (iblk1 V c 1 t) = fun p => col (cnts V c) (row t p) :=
    funext fun p => blk_cnts V c t p 0
  have h2 : cur (M := 5000) (K := 64) (iblk1 V c 2 t) = fun p k => cur (feats V c) (row t p) k :=
    funext fun p => funext fun k => blk_feats V c t p k
  have h3 : cur (M := 64) (K := 32) (iblk1 V c 3 t) = cur (wl V c) :=
    funext fun k => funext fun q => blk_wl V c t k q
  have h4 : vec (N := 32) (iblk1 V c 4 t) = vec (bias V c) := funext fun q => blk_bias V c t q
  have h5 : cur (M := 64) (K := 32) (iblk1 V c 5 t) = cur (wr V c) :=
    funext fun k => funext fun q => blk_wr V c t k q
  rw [h0, h1, h2, h3, h4, h5]
  rfl

/-! ## The blocks tile the array -/

/-- An index of the array is in point `t`'s block iff each coordinate is in the block's range on its axis. -/
theorem mem_blk (t : Fin cfg1.N) (i : S100000x32.Idx) :
    i ∈ ((cfg1.win 6).blk t).view.set ↔ ∀ a : Fin 2, win1_6.index t a * S5000x32.size a ≤ (i a).val
      ∧ (i a).val < win1_6.index t a * S5000x32.size a + S5000x32.size a := by
  show i ∈ ((View.whole main_v34).slice (win1_6.rect t)).set ↔ _
  rw [View.set_slice_whole, Rect.mem_set_unit]
  exact Iff.rfl

/-- Every index is in the block of the point `row / 5000`, and every point writes back. -/
theorem cover (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : (i 0).val / 5000 < cfg1.N := by rw [show cfg1.N = 20 from N_1]; omega
  obtain ⟨-, -, -, -, -, -, -, -, -, -, -, e0, e1⟩ := idx_facts ⟨(i 0).val / 5000, hN⟩
  refine ⟨⟨(i 0).val / 5000, hN⟩, flush1_6 _, ?_⟩
  rw [mem_blk]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, hN⟩ (1 : Fin 2) * 32 ≤ (i 1).val
      ∧ (i 1).val < win1_6.index ⟨(i 0).val / 5000, hN⟩ (1 : Fin 2) * 32 + 32
    rw [e1]
    omega

/-- THE ARRAY AFTER THE REGION: the layer of the entry arrays. -/
theorem array (c : Dev nD) : (dat1 V c).arrAt 6 cfg1.N = result V c :=
  (dat1 V c).arrAt_eq_of_cover 6 (result V c) (fun t _ => flushed V c t) (cover)

end Cert.KernelIdeal.Region1

end
-- ==== Proof.Chain.lean ====
/-
  The whole computation as functions of the eight arguments.

  The edge list `e : [2, 600000]` holds the edges' sources in its first row and their destinations in its second. A
  source that is negative counts from the end (`s + 100000`). The NEIGHBOUR COUNT of node `v` is the number of edges
  whose destination is `v`: ones scattered, added, at the destinations into zeros. The NEIGHBOUR SUM of a feature array
  is, per node `v`, the sum of the feature rows of the sources of the edges whose destination is `v`: the rows gathered
  at the sources, scattered, added, at the destinations into zeros. Neither is ever opened here: both programs apply
  these same operations, so they are carried as named functions of the arguments.

  Over them the program is two layers of the specification: the hidden features are the rectified layer of the
  neighbour sums of `x`, the counts, `x` itself and the first layer's (transposed) weights and bias; the output is the
  layer of the neighbour sums of the hidden features, the same counts, the hidden features and the second layer's
  weights and bias.
-/
import proofs.«115730_j81544249081903_1_alg».proof.Proof.Gen.KernelIdeal
import proofs.«115730_j81544249081903_1_alg».proof.Proof.Spec

noncomputable section

namespace Cert.KernelIdeal.Chain

open Idealize.ShloMosaic Cert.KernelIdeal Cert.Spec
open Cert.KernelIdeal.Facts₀ Cert.KernelIdeal.Facts

/-- The sources: the edge list's first row. -/
def src (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000

/-- The destinations: the edge list's second row. -/
def dst (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000

/-- The sources with a negative number counted from the end. -/
def srcN (e : (⟨S2x600000, .i32⟩ : BufTy).Contents (Elt Ideal)) : (⟨S600000, .i32⟩ : BufTy).Contents (Elt Ideal) :=
  select (cmpi .slt (src e) (broadcastInDim S600000 ![] bcast_S_S600000 (constantI S_ 32 0#32)))
    (addi (src e) (broadcastInDim S600000 ![] bcast_S_S600000 (constantI S_ 32 100000#32))) (src e)

/-- The neighbour counts. -/
def cnt (e : (⟨S2x600000, .i32⟩ : BufTy).Contents (Elt Ideal)) : (⟨S100000, .f32⟩ : BufTy).Contents (Elt Ideal) :=
  Host.scatterAdd (F := Ideal) scatter_S100000_S600000x1_S600000_n_0_0_1
    (broadcastInDim S100000 ![] bcast_S_S100000 (constant (F := Ideal) S_ .f32 0x00000000#32))
    (broadcastInDim S600000x1 ![0] bcast_S600000_S600000x1_0 (dst e))
    (broadcastInDim S600000 ![] bcast_S_S600000 (constant (F := Ideal) S_ .f32 0x3F800000#32))

/-- The neighbour counts as a column. -/
def cntCol (e : (⟨S2x600000, .i32⟩ : BufTy).Contents (Elt Ideal)) : (⟨S100000x1, .f32⟩ : BufTy).Contents (Elt Ideal) :=
  broadcastInDim S100000x1 ![0] bcast_S100000_S100000x1_0 (cnt e)

/-- The neighbour sums of an array of 128 features per node. -/
def agg128 (x : (⟨S100000x128, .f32⟩ : BufTy).Contents (Elt Ideal)) (e : (⟨S2x600000, .i32⟩ : BufTy).Contents (Elt Ideal)) :
    (⟨S100000x128, .f32⟩ : BufTy).Contents (Elt Ideal) :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 (dst e))
    (Host.gather gather_S100000x128_S600000x1_S600000x128_1_0_n_n_0_1_1128 x
      (broadcastInDim S600000x1 ![0] bcast_S600000_S600000x1_0 (srcN e)))

/-- The neighbour sums of an array of 64 features per node. -/
def agg64 (h : (⟨S100000x64, .f32⟩ : BufTy).Contents (Elt Ideal)) (e : (⟨S2x600000, .i32⟩ : BufTy).Contents (Elt Ideal)) :
    (⟨S100000x64, .f32⟩ : BufTy).Contents (Elt Ideal) :=
  Host.scatterAdd (F := Ideal) scatter_S100000x64_S600000x1_S600000x64_1_0_0_1
    (broadcastInDim S100000x64 ![] bcast_S_S100000x64 (constant (F := Ideal) S_ .f32 0x00000000#32))
    (broadcastInDim S600000x1 ![0] bcast_S600000_S600000x1_0 (dst e))
    (Host.gather gather_S100000x64_S600000x1_S600000x64_1_0_n_n_0_1_164 h
      (broadcastInDim S600000x1 ![0] bcast_S600000_S600000x1_0 (srcN e)))

/-- A first-layer weight matrix `[64, 128]`, transposed. -/
def tr128 (w : (⟨S64x128, .f32⟩ : BufTy).Contents (Elt Ideal)) : (⟨S128x64, .f32⟩ : BufTy).Contents (Elt Ideal) :=
  transpose S128x64 [1, 0] w transposes_S64x128_S128x64_1_0

/-- A second-layer weight matrix `[32, 64]`, transposed. -/
def tr64 (w : (⟨S32x64, .f32⟩ : BufTy).Contents (Elt Ideal)) : (⟨S64x32, .f32⟩ : BufTy).Contents (Elt Ideal) :=
  transpose S64x32 [1, 0] w transposes_S32x64_S64x32_1_0

/-- THE HIDDEN FEATURES: the rectified first layer. -/
def hidden (x : (⟨S100000x128, .f32⟩ : BufTy).Contents (Elt Ideal)) (e : (⟨S2x600000, .i32⟩ : BufTy).Contents (Elt Ideal))
    (w1l : (⟨S64x128, .f32⟩ : BufTy).Contents (Elt Ideal)) (b1 : (⟨S64, .f32⟩ : BufTy).Contents (Elt Ideal))
    (w1r : (⟨S64x128, .f32⟩ : BufTy).Contents (Elt Ideal)) : (⟨S100000x64, .f32⟩ : BufTy).Contents (Elt Ideal) :=
  arr (relu (layer (cur (agg128 x e)) (col (cntCol e)) (cur x) (cur (tr128 w1l)) (vec b1) (cur (tr128 w1r))))

/-- THE OUTPUT: the second layer, over the hidden features. -/
def out (x : (⟨S100000x128, .f32⟩ : BufTy).Contents (Elt Ideal)) (e : (⟨S2x600000, .i32⟩ : BufTy).Contents (Elt Ideal))
    (w1l : (⟨S64x128, .f32⟩ : BufTy).Contents (Elt Ideal)) (b1 : (⟨S64, .f32⟩ : BufTy).Contents (Elt Ideal))
    (w1r : (⟨S64x128, .f32⟩ : BufTy).Contents (Elt Ideal)) (w2l : (⟨S32x64, .f32⟩ : BufTy).Contents (Elt Ideal))
    (b2 : (⟨S32, .f32⟩ : BufTy).Contents (Elt Ideal)) (w2r : (⟨S32x64, .f32⟩ : BufTy).Contents (Elt Ideal)) :
    (⟨S100000x32, .f32⟩ : BufTy).Contents (Elt Ideal) :=
  arr (layer (cur (agg64 (hidden x e w1l b1 w1r) e)) (col (cntCol e)) (cur (hidden x e w1l b1 w1r)) (cur (tr64 w2l)) (vec b2)
    (cur (tr64 w2r)))

end Cert.KernelIdeal.Chain

end
-- ==== Proof.KernelValue.lean ====
/-
  The kernel program's result, as a function of its arguments.

  Before the first pallas_call the host operations compute the neighbour counts (as a column), the neighbour sums of the
  node features and the first layer's transposed weights; the pallas_call leaves the rectified layer of these in its
  result array (the first region's array lemma). Between the two pallas_calls the host operations compute the neighbour
  sums of that array and the second layer's transposed weights; the count column is the one computed at the start, which
  the first pallas_call only read. The second pallas_call leaves the layer of these in the program's result.
  Each array a region is entered with is read off the operations before it as the named function of the arguments.
-/
import proofs.«115730_j81544249081903_1_alg».proof.Proof.Region0
import proofs.«115730_j81544249081903_1_alg».proof.Proof.Region1
import proofs.«115730_j81544249081903_1_alg».proof.Proof.Chain
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-! ## What the first region is entered with -/

set_option maxHeartbeats 1000000 in
theorem sums0 (c : Dev nD) : Region0.sums (V1 m ρ) c = Chain.agg128 (m ((c : Thread nD τ).loc main_arg0)) (m ((c : Thread nD τ).loc main_arg1)) := by
  show StableHlo.after hostOps0 (W0 m ρ c) (Proc.devRef .tc main_v18) = _
  after_results_simp
  rfl

theorem cnts0 (c : Dev nD) : Region0.cnts (V1 m ρ) c = Chain.cntCol (m ((c : Thread nD τ).loc main_arg1)) := by
  show StableHlo.after hostOps0 (W0 m ρ c) (Proc.devRef .tc main_v8) = _
  after_results
  rfl

theorem feats0 (c : Dev nD) : Region0.feats (V1 m ρ) c = m ((c : Thread nD τ).loc main_arg0) := by
  show StableHlo.after hostOps0 (W0 m ρ c) (Proc.devRef .tc main_arg0) = _
  after_results

theorem wl0 (c : Dev nD) : Region0.wl (V1 m ρ) c = Chain.tr128 (m ((c : Thread nD τ).loc main_arg2)) := by
  show StableHlo.after hostOps0 (W0 m ρ c) (Proc.devRef .tc main_v19) = _
  after_results
  rfl

theorem bias0 (c : Dev nD) : Region0.bias (V1 m ρ) c = m ((c : Thread nD τ).loc main_arg3) := by
  show StableHlo.after hostOps0 (W0 m ρ c) (Proc.devRef .tc main_arg3) = _
  after_results

theorem wr0 (c : Dev nD) : Region0.wr (V1 m ρ) c = Chain.tr128 (m ((c : Thread nD τ).loc main_arg4)) := by
  show StableHlo.after hostOps0 (W0 m ρ c) (Proc.devRef .tc main_v20) = _
  after_results
  rfl

/-- THE FIRST REGION's result array is the hidden features of the arguments. -/
theorem hidden_eq (c : Dev nD) : Region0.result (V1 m ρ) c = Chain.hidden (m ((c : Thread nD τ).loc main_arg0)) (m ((c : Thread nD τ).loc main_arg1)) (m ((c : Thread nD τ).loc main_arg2)) (m ((c : Thread nD τ).loc main_arg3)) (m ((c : Thread nD τ).loc main_arg4)) := by
  unfold Region0.result Chain.hidden
  rw [sums0, cnts0, feats0, wl0, bias0, wr0]

/-! ## What the host operations between the two regions find -/

/-- The hidden features are what the first region leaves in its result array. -/
theorem W2_hidden (c : Dev nD) : W2 m ρ c (Proc.devRef .tc main_v21) = Chain.hidden (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((Region0.array (V1 m ρ) c).trans (hidden_eq m ρ c))

/-- The sources, untouched by the first region. -/
theorem W2_src (c : Dev nD) : W2 m ρ c (Proc.devRef .tc main_v1) = Chain.src (m ((c : Thread nD τ).loc main_arg1)) :=
  (W2_of_ne m ρ c main_v1 (by decide)).trans (by
    show StableHlo.after hostOps0 (W0 m ρ c) (Proc.devRef .tc main_v1) = _
    after_results
    rfl)

/-- The destinations, untouched by the first region. -/
theorem W2_dst (c : Dev nD) : W2 m ρ c (Proc.devRef .tc main_v3) = Chain.dst (m ((c : Thread nD τ).loc main_arg1)) :=
  (W2_of_ne m ρ c main_v3 (by decide)).trans (by
    show StableHlo.after hostOps0 (W0 m ρ c) (Proc.devRef .tc main_v3) = _
    after_results
    rfl)

/-- The count column, which the first region only read. -/
theorem W2_cnts (c : Dev nD) : W2 m ρ c (Proc.devRef .tc main_v8) = Chain.cntCol (m ((c : Thread nD τ).loc main_arg1)) :=
  (W2_arr m ρ c 1).trans ((((dat0 (V1 m ρ) c).arrAt_in 1 rfl _).trans (A_eq0 (V1 m ρ) c 1)).trans (cnts0 m ρ c))

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## What the second region is entered with -/

set_option maxHeartbeats 1000000 in
theorem sums1 (c : Dev nD) : Region1.sums (V3 m ρ) c = Chain.agg64 (Chain.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v31) = _
  after_results_simp
  rw [W2_hidden, W2_src, W2_dst]
  rfl

theorem cnts1 (c : Dev nD) : Region1.cnts (V3 m ρ) c = Chain.cntCol (m ((c : Thread nD τ).loc main_arg1)) := by
  show StableHlo.after hostOps1 (W2 m ρ c) (Proc.devRef .tc main_v8) = _
  after_results
  exact W2_cnts m ρ c

theorem feats1 (c : Dev nD) : Region1.feats (V3 m ρ) c = Chain.hidden (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v21) = _
  after_results
  exact W2_hidden m ρ c

theorem wl1 (c : Dev nD) : Region1.wl (V3 m ρ) c = Chain.tr64 (m ((c : Thread nD τ).loc main_arg5)) := by
  show StableHlo.after hostOps1 (W2 m ρ c) (Proc.devRef .tc main_v32) = _
  after_results
  rw [W2_arg5]
  rfl

theorem bias1 (c : Dev nD) : Region1.bias (V3 m ρ) c = m ((c : Thread nD τ).loc main_arg6) := by
  show StableHlo.after hostOps1 (W2 m ρ c) (Proc.devRef .tc main_arg6) = _
  after_results
  exact W2_arg6 m ρ c

theorem wr1 (c : Dev nD) : Region1.wr (V3 m ρ) c = Chain.tr64 (m ((c : Thread nD τ).loc main_arg7)) := by
  show StableHlo.after hostOps1 (W2 m ρ c) (Proc.devRef .tc main_v33) = _
  after_results
  rw [W2_arg7]
  rfl

/-- THE SECOND REGION's result array is the output of the arguments. -/
theorem out_eq (c : Dev nD) : Region1.result (V3 m ρ) c = Chain.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Region1.result Chain.out
  rw [sums1, cnts1, feats1, wl1, bias1, wr1]

/-- THE PROGRAM'S RESULT BUFFER at the last boundary is the output of the arguments. -/
theorem kernel_result (c : Dev nD) : W4 m ρ c (Proc.devRef .tc main_v34) = Chain.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans ((Region1.array (V3 m ρ) c).trans (out_eq m ρ c))

end Cert.KernelIdeal.KValue

end
-- ==== Proof.HostLayer.lean ====
/-
  One layer as the host computes it, read at an entry.

  On the host a layer is a chain of whole-array operations: the counts `[n]` are raised to at least `1.0`, made a
  column `[n, 1]`, repeated along the row to `[n, fi]`, and the neighbour sums are divided by that; the quotient is
  multiplied by the left weights, the bias `[fo]` made a row `[1, fo]` and repeated down the rows is added, and the
  product of the node features with the right weights is added last. Each repeat reads its operand at the coordinate
  it keeps, the host's quotient and maximum are the extended reals' own, and the host's product at `(i, j)` is the
  plain matrix product's entry. So entry `(i, j)` of the chain is the specification's layer at `(i, j)`.
-/
import proofs.«115730_j81544249081903_1_alg».proof.Proof.Spec
import proofs.«115730_j81544249081903_1_alg».proof.Proof.LibPlainDot
import Idealize.ShloMosaic.Lib.Pipeline.Value
import Idealize.ShloMosaic.Lib.IdealHost
import Idealize.ShloMosaic.PureOps.Ideal.Laws

noncomputable section

open scoped BigOperators

namespace Cert.HostLayer

open Idealize.ShloMosaic Idealize.ShloMosaic.ValueIdx Cert.Spec

variable {α : Type}

/-! ## The four repeats -/

/-- A vector `[n]` made a column `[n, 1]` reads, at `(e, z)`, the vector at `e`. -/
theorem vecCol_apply {n : Nat} (h : (⟨1, ![n]⟩ : Shape).BroadcastsInDim (⟨2, ![n, 1]⟩ : Shape) (![0] : Fin 1 → Fin 2))
    (u : (⟨1, ![n]⟩ : Shape).Idx → α) (e : Fin n) (z : Fin 1) :
    broadcastInDim (⟨2, ![n, 1]⟩ : Shape) ![0] h u (ix2 e z) = u (ix1 e) := by
  refine broadcastInDim_apply ![0] h u (ix2 e z) (ix1 e) fun a => ?_
  match a with
  | ⟨0, _⟩ =>
    show e.val = if n = 1 then 0 else e.val
    split
    · have := e.isLt; omega
    · rfl

/-- A column `[n, 1]` repeated along the row to `[n, k]` reads, at `(p, q)`, the column at `p`. -/
theorem colRows_apply {n k : Nat}
    (h : (⟨2, ![n, 1]⟩ : Shape).BroadcastsInDim (⟨2, ![n, k]⟩ : Shape) (![0, 1] : Fin 2 → Fin 2))
    (v : (⟨2, ![n, 1]⟩ : Shape).Idx → α) (p : Fin n) (q : Fin k) :
    broadcastInDim (⟨2, ![n, k]⟩ : Shape) ![0, 1] h v (ix2 p q) = v (ix2 p (0 : Fin 1)) := by
  refine broadcastInDim_apply ![0, 1] h v (ix2 p q) (ix2 p (0 : Fin 1)) fun a => ?_
  match a with
  | ⟨0, _⟩ =>
    show p.val = if n = 1 then 0 else p.val
    split
    · have := p.isLt; omega
    · rfl
  | ⟨1, _⟩ => rfl

/-- A vector `[k]` made a row `[1, k]` reads, at `(z, q)`, the vector at `q`. -/
theorem vecRow_apply {k : Nat} (h : (⟨1, ![k]⟩ : Shape).BroadcastsInDim (⟨2, ![1, k]⟩ : Shape) (![1] : Fin 1 → Fin 2))
    (b : (⟨1, ![k]⟩ : Shape).Idx → α) (z : Fin 1) (q : Fin k) :
    broadcastInDim (⟨2, ![1, k]⟩ : Shape) ![1] h b (ix2 z q) = b (ix1 q) := by
  refine broadcastInDim_apply ![1] h b (ix2 z q) (ix1 q) fun a => ?_
  match a with
  | ⟨0, _⟩ =>
    show q.val = if k = 1 then 0 else q.val
    split
    · have := q.isLt; omega
    · rfl

/-- A row `[1, k]` repeated down the rows to `[n, k]` reads, at `(p, q)`, the row at `q`. -/
theorem rowRows_apply {n k : Nat}
    (h : (⟨2, ![1, k]⟩ : Shape).BroadcastsInDim (⟨2, ![n, k]⟩ : Shape) (![0, 1] : Fin 2 → Fin 2))
    (v : (⟨2, ![1, k]⟩ : Shape).Idx → α) (p : Fin n) (q : Fin k) :
    broadcastInDim (⟨2, ![n, k]⟩ : Shape) ![0, 1] h v (ix2 p q) = v (ix2 (0 : Fin 1) q) := by
  refine broadcastInDim_apply ![0, 1] h v (ix2 p q) (ix2 (0 : Fin 1) q) fun a => ?_
  match a with
  | ⟨0, _⟩ => rfl
  | ⟨1, _⟩ =>
    show q.val = if k = 1 then 0 else q.val
    split
    · have := q.isLt; omega
    · rfl

/-! ## The layer -/

/-- The left factor of the host's first product, read curried, is the mean: the sums at `(p, q)` over the counts'
    maximum with `1.0` at `p`. -/
theorem hostMean {N Fi : Nat}
    (h1 : (⟨0, ![]⟩ : Shape).BroadcastsInDim (⟨1, ![N]⟩ : Shape) (![] : Fin 0 → Fin 1))
    (h2 : (⟨1, ![N]⟩ : Shape).BroadcastsInDim (⟨2, ![N, 1]⟩ : Shape) (![0] : Fin 1 → Fin 2))
    (h3 : (⟨2, ![N, 1]⟩ : Shape).BroadcastsInDim (⟨2, ![N, Fi]⟩ : Shape) (![0, 1] : Fin 2 → Fin 2))
    (A : FVec Ideal (⟨2, ![N, Fi]⟩ : Shape) .f32) (C : FVec Ideal (⟨1, ![N]⟩ : Shape) .f32) :
    cur (Host.divf A (broadcastInDim (⟨2, ![N, Fi]⟩ : Shape) ![0, 1] h3 (broadcastInDim (⟨2, ![N, 1]⟩ : Shape) ![0] h2
        (maximumf C (broadcastInDim (⟨1, ![N]⟩ : Shape) ![] h1 (constant (F := Ideal) (⟨0, ![]⟩ : Shape) .f32 0x3F800000#32))))))
      = mean (cur A) (vec C) := by
  funext p q
  show Ideal.div (A (ix2 p q)) (broadcastInDim (⟨2, ![N, Fi]⟩ : Shape) ![0, 1] h3 (broadcastInDim (⟨2, ![N, 1]⟩ : Shape) ![0] h2
        (maximumf C (broadcastInDim (⟨1, ![N]⟩ : Shape) ![] h1 (constant (F := Ideal) (⟨0, ![]⟩ : Shape) .f32 0x3F800000#32))))
        (ix2 p q)) = _
  rw [colRows_apply, vecCol_apply, maximumf_apply, broadcastInDim_scalar_apply]
  rfl

/-- THE HOST'S LAYER at `(i, j)` is the specification's. -/
theorem hostLayer_entry {N Fi Fo : Nat}
    (d : DotDims (⟨2, ![N, Fi]⟩ : Shape) (⟨2, ![Fi, Fo]⟩ : Shape) (⟨2, ![N, Fo]⟩ : Shape))
    (hlc : d.lhsContracting = [1]) (hrc : d.rhsContracting = [0]) (hln : d.lhsNonContracting = [0])
    (hrn : d.rhsNonContracting = [1]) (hlb : d.lhsBatch = []) (hrb : d.rhsBatch = [])
    (h1 : (⟨0, ![]⟩ : Shape).BroadcastsInDim (⟨1, ![N]⟩ : Shape) (![] : Fin 0 → Fin 1))
    (h2 : (⟨1, ![N]⟩ : Shape).BroadcastsInDim (⟨2, ![N, 1]⟩ : Shape) (![0] : Fin 1 → Fin 2))
    (h3 : (⟨2, ![N, 1]⟩ : Shape).BroadcastsInDim (⟨2, ![N, Fi]⟩ : Shape) (![0, 1] : Fin 2 → Fin 2))
    (h4 : (⟨1, ![Fo]⟩ : Shape).BroadcastsInDim (⟨2, ![1, Fo]⟩ : Shape) (![1] : Fin 1 → Fin 2))
    (h5 : (⟨2, ![1, Fo]⟩ : Shape).BroadcastsInDim (⟨2, ![N, Fo]⟩ : Shape) (![0, 1] : Fin 2 → Fin 2))
    (A : FVec Ideal (⟨2, ![N, Fi]⟩ : Shape) .f32) (C : FVec Ideal (⟨1, ![N]⟩ : Shape) .f32)
    (X : FVec Ideal (⟨2, ![N, Fi]⟩ : Shape) .f32) (Wl : FVec Ideal (⟨2, ![Fi, Fo]⟩ : Shape) .f32)
    (b : FVec Ideal (⟨1, ![Fo]⟩ : Shape) .f32) (Wr : FVec Ideal (⟨2, ![Fi, Fo]⟩ : Shape) .f32) (i : Fin N) (j : Fin Fo) :
    addf (addf (Host.dotGeneral d none
          (Host.divf A (broadcastInDim (⟨2, ![N, Fi]⟩ : Shape) ![0, 1] h3 (broadcastInDim (⟨2, ![N, 1]⟩ : Shape) ![0] h2
            (maximumf C (broadcastInDim (⟨1, ![N]⟩ : Shape) ![] h1 (constant (F := Ideal) (⟨0, ![]⟩ : Shape) .f32 0x3F800000#32))))))
          Wl)
        (broadcastInDim (⟨2, ![N, Fo]⟩ : Shape) ![0, 1] h5 (broadcastInDim (⟨2, ![1, Fo]⟩ : Shape) ![1] h4 b)))
      (Host.dotGeneral d none X Wr) (ix2 i j)
      = layer (cur A) (vec C) (cur X) (cur Wl) (vec b) (cur Wr) i j := by
  rw [addf_apply, addf_apply, Cert.LibPlainDot.hostDot_apply d hlc hrc hln hrn hlb hrb,
    Cert.LibPlainDot.hostDot_apply d hlc hrc hln hrn hlb hrb, hostMean h1 h2 h3, rowRows_apply, vecRow_apply]
  rfl

/-- The host's rectifier at `(i, j)`: the maximum with the zero word. -/
theorem hostRelu_entry {N Fo : Nat}
    (h0 : (⟨0, ![]⟩ : Shape).BroadcastsInDim (⟨2, ![N, Fo]⟩ : Shape) (![] : Fin 0 → Fin 2))
    (Z : FVec Ideal (⟨2, ![N, Fo]⟩ : Shape) .f32) (i : Fin N) (j : Fin Fo) :
    maximumf Z (broadcastInDim (⟨2, ![N, Fo]⟩ : Shape) ![] h0 (constant (F := Ideal) (⟨0, ![]⟩ : Shape) .f32 0x00000000#32)) (ix2 i j)
      = max (Z (ix2 i j)) zero := by
  rw [maximumf_apply, broadcastInDim_scalar_apply]
  rfl

end Cert.HostLayer

end
-- ==== Proof.RefValue.lean ====
/-
  The reference program's result, as the same function of its arguments.

  The reference computes each layer on the host, whole array by whole array: the host's layer read at an entry is the
  specification's layer (of the neighbour sums, the counts as a vector, the features, the transposed weights and the
  bias), and its rectifier is the maximum with the zero word. Its neighbour sums, counts and transposes are the very
  operations the kernel program applies, with the same dimension numbers, so they are the named functions of the
  arguments by definition; the reference recomputes the counts for its second layer and gets the same function. The
  kernel program's count column read at a row is the count vector at that row. Hence the reference's result is the
  output function of the arguments, the one the kernel program's result is.
-/
import proofs.«115730_j81544249081903_1_alg».proof.Proof.Gen.ReferenceIdeal.Read
import proofs.«115730_j81544249081903_1_alg».proof.Proof.HostLayer
import proofs.«115730_j81544249081903_1_alg».proof.Proof.Chain

noncomputable section

namespace Cert.ReferenceIdeal.RefValue

open Idealize.ShloMosaic Idealize.ShloMosaic.TcCoe Idealize.ShloMosaic.ValueIdx Idealize.SL.Sem
open Cert.ReferenceIdeal Cert.ReferenceIdeal.Read Cert.Spec
open Cert.ReferenceIdeal.Facts₀ Cert.ReferenceIdeal.Facts

variable (x0 : (⟨S100000x128, .f32⟩ : BufTy).Contents (Elt Ideal)) (x1 : (⟨S2x600000, .i32⟩ : BufTy).Contents (Elt Ideal))
  (x2 : (⟨S64x128, .f32⟩ : BufTy).Contents (Elt Ideal)) (x3 : (⟨S64, .f32⟩ : BufTy).Contents (Elt Ideal)) (x4 : (⟨S64x128, .f32⟩ : BufTy).Contents (Elt Ideal))
  (x5 : (⟨S32x64, .f32⟩ : BufTy).Contents (Elt Ideal)) (x6 : (⟨S32, .f32⟩ : BufTy).Contents (Elt Ideal)) (x7 : (⟨S32x64, .f32⟩ : BufTy).Contents (Elt Ideal))

/-! ## The two layers, read at an entry -/

/-- The reference's hidden features: the rectified layer of its first neighbour sums, its first counts, the features and
    the first layer's transposed weights and bias. -/
theorem layer1 : val_main_v31 (F := Ideal) x0 x1 x2 x3 x4
    = arr (relu (layer (cur (val_main_v13 (F := Ideal) x0 x1)) (vec (val_main_v17 (F := Ideal) x1)) (cur x0) (cur (val_main_v23 (F := Ideal) x2)) (vec x3)
        (cur (val_main_v28 (F := Ideal) x4)))) := by
  funext y
  obtain ⟨i, j, rfl⟩ : ∃ (i : Fin 100000) (j : Fin 64), y = ix2 i j := ⟨y 0, y 1, eq_ix2 y⟩
  rw [arr_ix2]
  unfold relu
  unfold val_main_v31 val_main_call0_v0 val_main_call0_cst
  refine (Cert.HostLayer.hostRelu_entry bcast_S_S100000x64 (val_main_v30 (F := Ideal) x0 x1 x2 x3 x4) i j).trans ?_
  refine congrArg (fun z => max z zero) ?_
  unfold val_main_v30 val_main_v27 val_main_v29 val_main_v24 val_main_v26 val_main_v25 val_main_v22 val_main_v21
    val_main_v20 val_main_v19 val_main_v18 val_main_cst_3
  exact Cert.HostLayer.hostLayer_entry dot_S100000x128_S128x64_S100000x64_1_0_0_1_n_n rfl rfl rfl rfl rfl rfl
    bcast_S_S100000 bcast_S100000_S100000x1_0 bcast_S100000x1_S100000x128_0_1 bcast_S64_S1x64_1 bcast_S1x64_S100000x64_0_1
    (val_main_v13 (F := Ideal) x0 x1) (val_main_v17 (F := Ideal) x1) x0 (val_main_v23 (F := Ideal) x2) x3 (val_main_v28 (F := Ideal) x4) i j

/-- The reference's result: the layer of its second neighbour sums, its second counts, the hidden features and the
    second layer's transposed weights and bias. -/
theorem layer2 : val_main_v62 (F := Ideal) x0 x1 x2 x3 x4 x5 x6 x7
    = arr (layer (cur (val_main_v45 (F := Ideal) x0 x1 x2 x3 x4)) (vec (val_main_v49 (F := Ideal) x1)) (cur (val_main_v31 (F := Ideal) x0 x1 x2 x3 x4)) (cur (val_main_v55 (F := Ideal) x5)) (vec x6)
        (cur (val_main_v60 (F := Ideal) x7))) := by
  funext y
  obtain ⟨i, j, rfl⟩ : ∃ (i : Fin 100000) (j : Fin 32), y = ix2 i j := ⟨y 0, y 1, eq_ix2 y⟩
  rw [arr_ix2]
  unfold val_main_v62 val_main_v59 val_main_v61 val_main_v56 val_main_v58 val_main_v57 val_main_v54 val_main_v53
    val_main_v52 val_main_v51 val_main_v50 val_main_cst_9
  exact Cert.HostLayer.hostLayer_entry dot_S100000x64_S64x32_S100000x32_1_0_0_1_n_n rfl rfl rfl rfl rfl rfl
    bcast_S_S100000 bcast_S100000_S100000x1_0 bcast_S100000x1_S100000x64_0_1 bcast_S32_S1x32_1 bcast_S1x32_S100000x32_0_1
    (val_main_v45 (F := Ideal) x0 x1 x2 x3 x4) (val_main_v49 (F := Ideal) x1) (val_main_v31 (F := Ideal) x0 x1 x2 x3 x4) (val_main_v55 (F := Ideal) x5) x6 (val_main_v60 (F := Ideal) x7) i j

/-! ## The shared operations are the named functions -/

theorem sums_first : val_main_v13 (F := Ideal) x0 x1 = Cert.KernelIdeal.Chain.agg128 x0 x1 := rfl
theorem cnt_first : val_main_v17 (F := Ideal) x1 = Cert.KernelIdeal.Chain.cnt x1 := rfl
theorem cnt_second : val_main_v49 (F := Ideal) x1 = Cert.KernelIdeal.Chain.cnt x1 := rfl
theorem wl_first : val_main_v23 (F := Ideal) x2 = Cert.KernelIdeal.Chain.tr128 x2 := rfl
theorem wr_first : val_main_v28 (F := Ideal) x4 = Cert.KernelIdeal.Chain.tr128 x4 := rfl
theorem wl_second : val_main_v55 (F := Ideal) x5 = Cert.KernelIdeal.Chain.tr64 x5 := rfl
theorem wr_second : val_main_v60 (F := Ideal) x7 = Cert.KernelIdeal.Chain.tr64 x7 := rfl
theorem sums_second : val_main_v45 (F := Ideal) x0 x1 x2 x3 x4 = Cert.KernelIdeal.Chain.agg64 (val_main_v31 (F := Ideal) x0 x1 x2 x3 x4) x1 := rfl

/-- The count column at a row is the count vector at that row. -/
theorem col_cntCol : col (Cert.KernelIdeal.Chain.cntCol x1) = vec (Cert.KernelIdeal.Chain.cnt x1) :=
  funext fun i => Cert.HostLayer.vecCol_apply bcast_S100000_S100000x1_0 (Cert.KernelIdeal.Chain.cnt x1) i 0

/-! ## The result -/

/-- The reference's hidden features are the hidden features of the arguments. -/
theorem hidden_ref : val_main_v31 (F := Ideal) x0 x1 x2 x3 x4 = Cert.KernelIdeal.Chain.hidden x0 x1 x2 x3 x4 := by
  rw [layer1, sums_first, cnt_first, wl_first, wr_first]
  unfold Cert.KernelIdeal.Chain.hidden
  rw [col_cntCol]

/-- The reference's result is the output of the arguments. -/
theorem out_ref : val_main_v62 (F := Ideal) x0 x1 x2 x3 x4 x5 x6 x7 = Cert.KernelIdeal.Chain.out x0 x1 x2 x3 x4 x5 x6 x7 := by
  rw [layer2, sums_second, hidden_ref, cnt_second, wl_second, wr_second]
  unfold Cert.KernelIdeal.Chain.out
  rw [col_cntCol]

/-- THE REFERENCE RUN's result term is the output of the arguments. -/
theorem ref_result (m : (ℓ : Loc nD τ sig) → Buf (Elt Ideal) ℓ) (c : Dev nD) :
    Cert.ReferenceIdeal.Value.res_main_v62 (F := Ideal) m c
      = Cert.KernelIdeal.Chain.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v62_eq m c).trans (out_ref _ _ _ _ _ _ _ _)

end Cert.ReferenceIdeal.RefValue

end
-- ==== Proof.lean ====
/-
  A two-layer mean-aggregating graph encoder: the tiled kernel program against the whole-array reference.

  Both programs take node features `x : [100000, 128]`, an edge list `[2, 600000]` and two layers' weights and biases.
  For each layer they sum, per node, the feature rows of its in-neighbours (a gather at the edges' sources, scattered,
  added, at their destinations) and count the in-neighbours; the layer is

      (sums / max(count, 1)) · Wlᵀ + b + features · Wrᵀ,

  rectified after the first layer. The reference does all of it on the host. The kernel program does the sums, the
  counts and the transposes on the host with the same operations, and each layer's dense part in a pallas_call over 20
  blocks of 5000 rows, its matrix products in a narrower float format into a zero accumulator.

  On the extended reals a change of float format is the identity and a product into a zero accumulator is the plain
  product, so a block of a layer is the layer of the blocks; a layer's row depends only on that row of the sums, the
  counts and the features, and the 20 blocks tile the rows, so each pallas_call leaves the layer of its whole operand
  arrays. The reference's host layer, read entry by entry, is the same layer. The two programs therefore end at one and
  the same function of the arguments (`Chain.out`): no algebraic law beyond reading both sides entry by entry is needed,
  and the precondition is not used. The idealization rewrote nothing, so `preserves` holds trivially; the frames of the
  two kernel programs are the generated frame certificates, and the reference's frame is its generated run.
-/
import proofs.«115730_j81544249081903_1_alg».proof.Defs
import proofs.«115730_j81544249081903_1_alg».proof.Proof.Gen.Kernel
import proofs.«115730_j81544249081903_1_alg».proof.Proof.Gen.Kernel.Skeleton
import proofs.«115730_j81544249081903_1_alg».proof.Proof.Gen.Kernel.Launch
import proofs.«115730_j81544249081903_1_alg».proof.Proof.Gen.Kernel.Points
import proofs.«115730_j81544249081903_1_alg».proof.Proof.Gen.Kernel.Frame
import proofs.«115730_j81544249081903_1_alg».proof.Proof.Gen.KernelIdeal
import proofs.«115730_j81544249081903_1_alg».proof.Proof.Gen.KernelIdeal.Skeleton
import proofs.«115730_j81544249081903_1_alg».proof.Proof.Gen.KernelIdeal.Launch
import proofs.«115730_j81544249081903_1_alg».proof.Proof.Gen.KernelIdeal.Points
import proofs.«115730_j81544249081903_1_alg».proof.Proof.Gen.KernelIdeal.Frame
import proofs.«115730_j81544249081903_1_alg».proof.Proof.Gen.ReferenceIdeal
import proofs.«115730_j81544249081903_1_alg».proof.Proof.Gen.Pre_finite_inputs
import proofs.«115730_j81544249081903_1_alg».proof.Proof.Gen.ReferenceIdeal.Run
import proofs.«115730_j81544249081903_1_alg».proof.Proof.Gen.ReferenceIdeal.Read
import proofs.«115730_j81544249081903_1_alg».proof.Proof.RunNamed
import proofs.«115730_j81544249081903_1_alg».proof.Proof.KernelValue
import proofs.«115730_j81544249081903_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame certificate. -/
theorem frame_kernel : Cert.frame_Kernel := fun m ρ _ => Cert.Kernel.Gen.frame m ρ

/-- The idealized kernel program runs and keeps its arguments: its generated frame certificate. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with their result at the output function of the (agreeing) arguments. -/
theorem algebraic : Cert.algebraic_KernelIdeal_ReferenceIdeal := by
  intro m ρ m' ρ' _ hagree
  refine ⟨fun c => Cert.KernelIdeal.Chain.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.kernel_result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.RefValue.ref_result, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
